-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x128 : Shape := ⟨2, ![128, 128]⟩
abbrev S129 : Shape := ⟨1, ![129]⟩
abbrev S65 : Shape := ⟨1, ![65]⟩
abbrev S_ : Shape := ⟨0, ![]⟩
abbrev S128 : Shape := ⟨1, ![128]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S129 : S_.BroadcastsInDim S129 (![] : Fin 0 → Fin S129.rank)
  reducesTo_S129_S_d0 : S129.ReducesTo [0] S_
  bcast_S_S65 : S_.BroadcastsInDim S65 (![] : Fin 0 → Fin S65.rank)
  reducesTo_S65_S_d0 : S65.ReducesTo [0] S_
  slices_S129_S128_1 : S129.Slices ![1] S128
  slices_S129_S128_0 : S129.Slices ![0] S128
  reducesTo_S128_S_d0 : S128.ReducesTo [0] S_

variable [Facts]

def fn_part1 {F : FTy → Type} [FloatOps F] (main_arg2 : FVec F S129 .f32) (main_v13 : IVec S_ 1) (main_v16 : IVec S65 1) : IVec S_ 1 :=
  let main_c_5 : IVec S_ 1 := constantI S_ 1 1#1
  let main_v17 : IVec S_ 1 := (fun x v => Host.reduce IntOp.andi x v reducesTo_S65_S_d0 h_S_) main_v16 main_c_5
  let main_v18 : IVec S_ 1 := andi main_v13 main_v17
  let main_v19 : FVec F S128 .f32 := (extractStridedSlice S128 ![1] · slices_S129_S128_1) main_arg2
  let main_v20 : FVec F S128 .f32 := (extractStridedSlice S128 ![0] · slices_S129_S128_0) main_arg2
  let main_v21 : IVec S128 1 := cmpf .une main_v19 main_v20
  let main_c_6 : IVec S_ 1 := constantI S_ 1 1#1
  let main_v22 : IVec S_ 1 := (fun x v => Host.reduce IntOp.andi x v reducesTo_S128_S_d0 h_S_) main_v21 main_c_6
  let main_v23 : IVec S_ 1 := andi main_v18 main_v22
  main_v23

def fn {F : FTy → Type} [FloatOps F] (main_arg0 : FVec F S65536x128 .f32) (main_arg1 : FVec F S128x128 .f32) (main_arg2 : FVec F S129 .f32) (main_arg3 : FVec F S65 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S129 .f32 := Host.absf main_arg2
  let main_cst_2 : FVec F S_ .f32 := constant S_ .f32 0x7F800000#32
  let main_v10 : FVec F S129 .f32 := broadcastInDim S129 ![] bcast_S_S129 main_cst_2
  let main_v11 : IVec S129 1 := cmpf .olt main_v9 main_v10
  let main_c_3 : IVec S_ 1 := constantI S_ 1 1#1
  let main_v12 : IVec S_ 1 := (fun x v => Host.reduce IntOp.andi x v reducesTo_S129_S_d0 h_S_) main_v11 main_c_3
  let main_v13 : IVec S_ 1 := andi main_v8 main_v12
  let main_v14 : FVec F S65 .f32 := Host.absf main_arg3
  let main_cst_4 : FVec F S_ .f32 := constant S_ .f32 0x7F800000#32
  let main_v15 : FVec F S65 .f32 := broadcastInDim S65 ![] bcast_S_S65 main_cst_4
  let main_v16 : IVec S65 1 := cmpf .olt main_v14 main_v15
  fn_part1 (F := F) main_arg2 main_v13 main_v16
-- ==== Kernel.lean ====
abbrev S65536x128 : Shape := ⟨2, ![65536, 128]⟩
abbrev S128x128 : Shape := ⟨2, ![128, 128]⟩
abbrev S129 : Shape := ⟨1, ![129]⟩
abbrev S65 : Shape := ⟨1, ![65]⟩
abbrev S128 : Shape := ⟨1, ![128]⟩
abbrev S1x128 : Shape := ⟨2, ![1, 128]⟩
abbrev S64 : Shape := ⟨1, ![64]⟩
abbrev S64x1 : Shape := ⟨2, ![64, 1]⟩
abbrev S64x128 : Shape := ⟨2, ![64, 128]⟩
abbrev S65536x64 : Shape := ⟨2, ![65536, 64]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩

abbrev nBuf : Space → Nat
  | .hbm => 15
  | .vmem => 9
  | .smem => 0
  | _ => 0

abbrev bufTy : (tb : Table) → Fin (tcTables nBuf tb) → BufTy
  | .hbm, ⟨0, _⟩ => ⟨S65536x128, .f32⟩
  | .hbm, ⟨1, _⟩ => ⟨S128x128, .f32⟩
  | .hbm, ⟨2, _⟩ => ⟨S129, .f32⟩
  | .hbm, ⟨3, _⟩ => ⟨S65, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S64, .f32⟩
  | .hbm, ⟨9, _⟩ => ⟨S64x1, .f32⟩
  | .hbm, ⟨10, _⟩ => ⟨S64x128, .f32⟩
  | .hbm, ⟨11, _⟩ => ⟨S64, .f32⟩
  | .hbm, ⟨12, _⟩ => ⟨S64x1, .f32⟩
  | .hbm, ⟨13, _⟩ => ⟨S64x128, .f32⟩
  | .hbm, ⟨14, _⟩ => ⟨S65536x64, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S64x128, .f32⟩
  | .local _ .vmem, ⟨6, _⟩ => ⟨S64x128, .f32⟩
  | .local _ .vmem, ⟨7, _⟩ => ⟨S1024x64, .f32⟩
  | .local _ .vmem, ⟨8, _⟩ => ⟨S1024x64, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S129_S128_0 : S129.Slices ![0] S128
  shapeCasts_S128_S1x128 : S128.ShapeCasts S1x128
  slices_S129_S128_1 : S129.Slices ![1] S128
  slices_S65_S64_0 : S65.Slices ![0] S64
  shapeCasts_S64_S64x1 : S64.ShapeCasts S64x1
  bcast_S64x1_S64x128_0_1 : S64x1.BroadcastsInDim S64x128 (![0, 1] : Fin 2 → Fin S64x128.rank)
  slices_S65_S64_1 : S65.Slices ![1] S64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  reduces_S1024x128_S1024 : S1024x128.Reduces [1] S1024
  shapeCasts_S1024_S1024x1 : S1024.ShapeCasts S1024x1
  broadcasts_S1024x1_S1024x128 : S1024x1.Broadcasts S1024x128
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x128_S128x128_S1024x128_1_0_0_1_n_n_wf : DotDims.WF S1024x128 S128x128 S1024x128 [1] [0] [0] [1] [] []
  dot_S1024x128_S64x128_S1024x64_1_1_0_0_n_n_wf : DotDims.WF S1024x128 S64x128 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S65536x64.size a
  hwx0_6 : ∀ i : grid0.Coords, EltTy.bits .f32 = 32 ∨ (Rect.block (s := S65536x64) S1024x64.size (cc0_transform_6 i) (hinb0_6 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x128 : Shape := ⟨2, ![65536, 128]⟩
abbrev S128x128 : Shape := ⟨2, ![128, 128]⟩
abbrev S129 : Shape := ⟨1, ![129]⟩
abbrev S65 : Shape := ⟨1, ![65]⟩
abbrev S_ : Shape := ⟨0, ![]⟩
abbrev S65536 : Shape := ⟨1, ![65536]⟩
abbrev S65536x1 : Shape := ⟨2, ![65536, 1]⟩
abbrev S128 : Shape := ⟨1, ![128]⟩
abbrev S1x128 : Shape := ⟨2, ![1, 128]⟩
abbrev S64 : Shape := ⟨1, ![64]⟩
abbrev S64x1 : Shape := ⟨2, ![64, 1]⟩
abbrev S64x128 : Shape := ⟨2, ![64, 128]⟩
abbrev S128x64 : Shape := ⟨2, ![128, 64]⟩
abbrev S65536x64 : Shape := ⟨2, ![65536, 64]⟩

abbrev nBuf : Space → Nat
  | .hbm => 50
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S128x128, .f32⟩
  | .hbm, ⟨2, _⟩ => ⟨S129, .f32⟩
  | .hbm, ⟨3, _⟩ => ⟨S65, .f32⟩
  | .hbm, ⟨4, _⟩ => ⟨S65536x128, .f32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536x1, .f32⟩
  | .hbm, ⟨11, _⟩ => ⟨S65536x128, .f32⟩
  | .hbm, ⟨12, _⟩ => ⟨S65536x128, .f32⟩
  | .hbm, ⟨13, _⟩ => ⟨S65536x128, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x128, .f32⟩
  | .hbm, ⟨18, _⟩ => ⟨S65536x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S65536x128, .f32⟩
  | .hbm, ⟨24, _⟩ => ⟨S65536x128, .f32⟩
  | .hbm, ⟨25, _⟩ => ⟨S128, .f32⟩
  | .hbm, ⟨26, _⟩ => ⟨S1x128, .f32⟩
  | .hbm, ⟨27, _⟩ => ⟨S64, .f32⟩
  | .hbm, ⟨28, _⟩ => ⟨S64x1, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S128, .f32⟩
  | .hbm, ⟨33, _⟩ => ⟨S1x128, .f32⟩
  | .hbm, ⟨34, _⟩ => ⟨S64, .f32⟩
  | .hbm, ⟨35, _⟩ => ⟨S64x1, .f32⟩
  | .hbm, ⟨36, _⟩ => ⟨S64x128, .f32⟩
  | .hbm, ⟨37, _⟩ => ⟨S64x128, .f32⟩
  | .hbm, ⟨38, _⟩ => ⟨S64x128, .f32⟩
  | .hbm, ⟨39, _⟩ => ⟨S64x128, .f32⟩
  | .hbm, ⟨40, _⟩ => ⟨S_, .f32⟩
  | .hbm, ⟨41, _⟩ => ⟨S_, .f32⟩
  | .hbm, ⟨42, _⟩ => ⟨S64x128, .f32⟩
  | .hbm, ⟨43, _⟩ => ⟨S64x128, .f32⟩
  | .hbm, ⟨44, _⟩ => ⟨S128x64, .f32⟩
  | .hbm, ⟨45, _⟩ => ⟨S65536x64, .f32⟩
  | .hbm, ⟨46, _⟩ => ⟨S_, .f32⟩
  | .hbm, ⟨47, _⟩ => ⟨S65536x64, .f32⟩
  | .hbm, ⟨48, _⟩ => ⟨S65536x64, .f32⟩
  | .hbm, ⟨49, _⟩ => ⟨S65536x64, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  reducesTo_S65536x128_S65536_d1 : S65536x128.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  slices_S129_S128_1 : S129.Slices ![1] S128
  slices_S129_S128_0 : S129.Slices ![0] S128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S65_S64_0 : S65.Slices ![0] S64
  bcast_S64_S64x1_0 : S64.BroadcastsInDim S64x1 (![0] : Fin 1 → Fin S64x1.rank)
  bcast_S1x128_S64x128_0_1 : S1x128.BroadcastsInDim S64x128 (![0, 1] : Fin 2 → Fin S64x128.rank)
  bcast_S64x1_S64x128_0_1 : S64x1.BroadcastsInDim S64x128 (![0, 1] : Fin 2 → Fin S64x128.rank)
  slices_S65_S64_1 : S65.Slices ![1] S64
  bcast_S_S64x128 : S_.BroadcastsInDim S64x128 (![] : Fin 0 → Fin S64x128.rank)
  transposes_S64x128_S128x64_1_0 : S64x128.Transposes [1, 0] S128x64
  bcast_S_S65536x64 : S_.BroadcastsInDim S65536x64 (![] : Fin 0 → Fin S65536x64.rank)
  dot_S65536x128_S128x128_S65536x128_1_0_0_1_n_n_wf : DotDims.WF S65536x128 S128x128 S65536x128 [1] [0] [0] [1] [] []
  dot_S65536x128_S128x64_S65536x64_1_0_0_1_n_n_wf : DotDims.WF S65536x128 S128x64 S65536x64 [1] [0] [0] [1] [] []

variable [Facts₀]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf

class Facts : Prop extends Facts₀ where

variable [Facts]
-- ==== Proof.Spec.lean ====
/-
  The mathematics both programs compute, as functions of the four argument arrays read as extended reals.

  A row `b` of `x` gives 128 logits `logit b k = ∑ d, x[b,d] · W[d,k]`; with `rowMax b` their maximum,
  `expo b k = exp (logit b k − rowMax b)` and `expSum b = ∑ k, expo b k` are the numerator and denominator of the
  row's softmax. The old bins are `[lo k, hi k] = [old_edges[k], old_edges[k+1]]`, the new bins
  `[nlo n, nhi n] = [new_edges[n], new_edges[n+1]]`; `overlap n k = max 0 (min (hi k) (nhi n) − max (lo k) (nlo n))`
  is the length of their intersection and `width k = hi k − lo k` the old bin's length.

  The kernel folds the softmax's denominator out of the rebinning sum and the old bin's width into the overlap,
      `kernelOut b n = log ((∑ k, expo b k · (overlap n k / width k)) / expSum b + tiny)`,
  the reference divides each probability by its bin's width first,
      `refOut b n = log ((∑ k, ((expo b k / expSum b) / width k) · overlap n k) + tiny)`.
-/
import Idealize.ShloMosaic.PureOps.Ideal
import Idealize.ShloMosaic.Lib.ValueIdx

noncomputable section

open scoped BigOperators

namespace Cert.Rebin

open Idealize.ShloMosaic Idealize.ShloMosaic.ValueIdx

/-- The arrays' shapes: `x`, `W`, `old_edges`, `new_edges` and the result. -/
abbrev SX : Shape := ⟨2, ![65536, 128]⟩
abbrev SW : Shape := ⟨2, ![128, 128]⟩
abbrev SOE : Shape := ⟨1, ![129]⟩
abbrev SNE : Shape := ⟨1, ![65]⟩
abbrev SOut : Shape := ⟨2, ![65536, 64]⟩

variable (x : SX.Idx → EReal) (W : SW.Idx → EReal) (oe : SOE.Idx → EReal) (ne : SNE.Idx → EReal)

/-- Row `b`'s logit for old bin `k`. -/
def logit (b : Fin 65536) (k : Fin 128) : EReal := ∑ d : Fin 128, x (ix2 b d) * W (ix2 d k)

/-- The largest logit of row `b` (the fold of `max` from `-∞`). -/
def rowMax (b : Fin 65536) : EReal := (Finset.univ : Finset (Fin 128)).fold max ⊥ (fun k => logit x W b k)

/-- The softmax numerator. -/
def expo (b : Fin 65536) (k : Fin 128) : EReal := Ideal.exp (logit x W b k - rowMax x W b)

/-- The softmax denominator. -/
def expSum (b : Fin 65536) : EReal := ∑ k : Fin 128, expo x W b k

/-- Old bin `k`'s left and right edge. -/
def lo (k : Fin 128) : EReal := oe (ix1 (⟨k.val, by omega⟩ : Fin 129))
def hi (k : Fin 128) : EReal := oe (ix1 (⟨1 + k.val, by omega⟩ : Fin 129))

/-- New bin `n`'s left and right edge. -/
def nlo (n : Fin 64) : EReal := ne (ix1 (⟨n.val, by omega⟩ : Fin 65))
def nhi (n : Fin 64) : EReal := ne (ix1 (⟨1 + n.val, by omega⟩ : Fin 65))

/-- The length of the intersection of new bin `n` with old bin `k`. -/
def overlap (n : Fin 64) (k : Fin 128) : EReal := max 0 (min (hi oe k) (nhi ne n) - max (lo oe k) (nlo ne n))

/-- Old bin `k`'s length. -/
def width (k : Fin 128) : EReal := hi oe k - lo oe k

/-- The smallest positive normal f32, added under the logarithm. -/
def tiny : EReal := Ideal.ofBits .f32 0x00800000#32

/-- The kernel's arrangement. -/
def kernelOut (b : Fin 65536) (n : Fin 64) : EReal :=
  Ideal.log (Ideal.div (∑ k : Fin 128, expo x W b k * Ideal.div (overlap oe ne n k) (width oe k)) (expSum x W b) + tiny)

/-- The reference's arrangement. -/
def refOut (b : Fin 65536) (n : Fin 64) : EReal :=
  Ideal.log ((∑ k : Fin 128, Ideal.div (Ideal.div (expo x W b k) (expSum x W b)) (width oe k) * overlap oe ne n k) + tiny)

/-- The two arrangements as whole result arrays. -/
def kernelArr : SOut.Idx → EReal := fun i => kernelOut x W oe ne ⟨(i 0).val, (i 0).isLt⟩ ⟨(i 1).val, (i 1).isLt⟩
def refArr : SOut.Idx → EReal := fun i => refOut x W oe ne ⟨(i 0).val, (i 0).isLt⟩ ⟨(i 1).val, (i 1).isLt⟩

/-- What the precondition says of the arrays: every entry a real number, and no old bin of length zero. -/
structure Admissible : Prop where
  x_real : ∀ i, ∃ r : ℝ, x i = (r : EReal)
  W_real : ∀ i, ∃ r : ℝ, W i = (r : EReal)
  oe_real : ∀ i, ∃ r : ℝ, oe i = (r : EReal)
  ne_real : ∀ i, ∃ r : ℝ, ne i = (r : EReal)
  width_ne : ∀ k : Fin 128, hi oe k ≠ lo oe k

end Cert.Rebin

end
-- ==== Proof.PreFacts.lean ====
/-
  From the stated precondition to what it says of the arrays: every entry of the four inputs is a real number,
  and no old bin has length zero.
-/
import proofs.«147845_g67611375173676_cont_9to1c4b_817_2_alg».proof.Pre_finite_inputs
import proofs.«147845_g67611375173676_cont_9to1c4b_817_2_alg».proof.Proof.Spec
import Idealize.ShloMosaic.Lib.ReduceAll
import Idealize.ShloMosaic.Lib.Pipeline.Value
import Idealize.ShloMosaic.PureOps.Ideal.Laws

noncomputable section

namespace Cert.Rebin

open Idealize.ShloMosaic Idealize.ShloMosaic.ValueIdx

/-- The shape of a single number has one index. -/
instance subsingleton_scalar_idx : Subsingleton (⟨0, ![]⟩ : Shape).Idx := ⟨fun _ _ => funext fun d => d.elim0⟩

/-- The bit pattern the precondition compares against is +∞. -/
theorem inf_bits : Ideal.ofBits .f32 0x7F800000#32 = ⊤ := by simp [Ideal.ofBits, Ideal.ieee]

/-- An extended real whose absolute value `max a (-a)` is below +∞ is a real number. -/
theorem real_of_abs_lt_top (a : EReal) (h : max a (-a) < ⊤) : ∃ r : ℝ, a = (r : EReal) := by
  induction a using EReal.rec with
  | bot => simp at h
  | top => simp at h
  | coe r => exact ⟨r, rfl⟩

/-- One array's clause: if "every entry has absolute value below +∞", reduced by `and` to one bit, is 1, every entry
    is a real number. -/
theorem real_of_all_finite {s : Shape} {axes : List (Fin s.rank)} (a : s.Idx → EReal)
    (hb : (⟨0, ![]⟩ : Shape).BroadcastsInDim s (![] : Fin 0 → Fin s.rank)) (hr : s.ReducesTo axes ⟨0, ![]⟩)
    (h0 : 0 < (⟨0, ![]⟩ : Shape).numel) (j : (⟨0, ![]⟩ : Shape).Idx)
    (e : Host.reduce IntOp.andi
        (cmpf (F := Ideal) (φ := .f32) .olt (Host.absf a) (broadcastInDim s ![] hb (constant ⟨0, ![]⟩ .f32 0x7F800000#32)))
        (constantI ⟨0, ![]⟩ 1 1#1) hr h0 j = 1#1) (i : s.Idx) : ∃ r : ℝ, a i = (r : EReal) := by
  have hi := Host.reduce_andi_all _ _ hr h0 j e i
  apply real_of_abs_lt_top
  have hi' : BitVec.ofBool (decide (max (a i) (-(a i)) < Ideal.ofBits .f32 0x7F800000#32)) = 1#1 := hi
  rw [inf_bits] at hi'
  revert hi'
  by_cases hlt : max (a i) (-(a i)) < ⊤
  · exact fun _ => hlt
  · simp [hlt]

theorem admissible_of_pre [Cert.Pre_finite_inputs.Facts]
    (x : SX.Idx → EReal) (W : SW.Idx → EReal) (oe : SOE.Idx → EReal) (ne : SNE.Idx → EReal)
    (h : Cert.Pre_finite_inputs.fn (F := Ideal) x W oe ne = fun _ => 1#1) : Admissible x W oe ne := by
  have h0 := congrFun h ix0
  dsimp only [Cert.Pre_finite_inputs.fn, Cert.Pre_finite_inputs.fn_part1, andi] at h0
  obtain ⟨h1, hw⟩ := IntOp.andi_eq_one.1 h0
  obtain ⟨h2, hne⟩ := IntOp.andi_eq_one.1 h1
  obtain ⟨h3, hoe⟩ := IntOp.andi_eq_one.1 h2
  obtain ⟨hx, hW⟩ := IntOp.andi_eq_one.1 h3
  refine ⟨real_of_all_finite x _ _ _ _ hx, real_of_all_finite W _ _ _ _ hW, real_of_all_finite oe _ _ _ _ hoe,
    real_of_all_finite ne _ _ _ _ hne, fun k => ?_⟩
  have hk := Host.reduce_andi_all _ _ _ _ _ hw (ix1 k)
  have e1 : ∀ hs, extractStridedSlice Cert.Pre_finite_inputs.S128 ![1] oe hs (ix1 k) = hi oe k := fun hs =>
    extractStridedSlice_apply _ oe hs (ix1 k) (ix1 (⟨1 + k.val, by omega⟩ : Fin 129))
      (fun a => match a with | ⟨0, _⟩ => rfl)
  have e0 : ∀ hs, extractStridedSlice Cert.Pre_finite_inputs.S128 ![0] oe hs (ix1 k) = lo oe k := fun hs =>
    extractStridedSlice_apply _ oe hs (ix1 k) (ix1 (⟨k.val, by omega⟩ : Fin 129))
      (fun a => match a with | ⟨0, _⟩ => by show k.val = 0 + k.val; omega)
  have hk' : BitVec.ofBool (decide (hi oe k ≠ lo oe k)) = 1#1 := by
    rw [← e1, ← e0]; exact hk
  intro heq
  have hd : decide (hi oe k ≠ lo oe k) = false := decide_eq_false (not_not.mpr heq)
  rw [hd] at hk'
  exact absurd hk' (by decide)

end Cert.Rebin

end
-- ==== Proof.RefValue.lean ====
/-
  The reference's result, read one operation at a time, is the reference's arrangement `refArr` of the four arrays.
-/
import proofs.«147845_g67611375173676_cont_9to1c4b_817_2_alg».proof.Proof.Gen.ReferenceIdeal.Read
import proofs.«147845_g67611375173676_cont_9to1c4b_817_2_alg».proof.Proof.Spec
import Idealize.ShloMosaic.Lib.Pipeline.Value
import Idealize.ShloMosaic.Lib.ValueIdx
import Idealize.ShloMosaic.PureOps.Ideal.Laws

noncomputable section

namespace Cert.Rebin

open Idealize.ShloMosaic Idealize.ShloMosaic.ValueIdx
open Cert.ReferenceIdeal Cert.ReferenceIdeal.Gen

section Stages

variable (x : SX.Idx → EReal) (W : SW.Idx → EReal) (oe : SOE.Idx → EReal) (ne : SNE.Idx → EReal)

/-- The word of `-∞` reads as the bottom element. -/
theorem ref_ofBits_neg_inf : Ideal.ofBits .f32 0xFF800000#32 = (⊥ : EReal) := by
  simp [Ideal.ofBits, Ideal.ieee]

/-- The first matrix product at `(b, k)` is the logit. -/
theorem ref_v0_at (b : Fin 65536) (k : Fin 128) :
    Read.val_main_v0 (F := Ideal) x W (ix2 b k) = logit x W b k := by
  rw [Read.val_main_v0_apply]
  unfold logit
  refine Finset.sum_congr rfl fun d _ => ?_
  have e1 : Read.lidx_main_v0 (ix2 b k) d = ix2 b d :=
    funext fun a => Fin.ext (by match a with | ⟨0, _⟩ => rfl | ⟨1, _⟩ => rfl)
  have e2 : Read.ridx_main_v0 (ix2 b k) d = ix2 d k :=
    funext fun a => Fin.ext (by match a with | ⟨0, _⟩ => rfl | ⟨1, _⟩ => rfl)
  rw [e1, e2]

/-- The row maximum at `b`. -/
theorem ref_v3_at (b : Fin 65536) :
    Read.val_main_v3 (F := Ideal) x W (ix1 b) = rowMax x W b := by
  have h : Shape.Reduces S65536x128 [1] S65536 := by decide
  rw [Read.val_main_v3_apply, Read.val_main_v2_apply, Read.val_main_cst_0_apply]
  unfold Read.val_main_v1
  rw [Host.reduce_eq_fold_single (FloatOps.maximumf (F := Ideal) (φ := .f32)) _ _ reducesTo_S65536x128_S65536_d1 h h_S_ (ix1 b)]
  rw [Read.val_main_cst_apply]
  simp only [Ideal.ofBits_def, Ideal.maximumf_def, ref_ofBits_neg_inf]
  rw [max_bot_left]
  unfold rowMax
  show Finset.fold max ⊥ (fun k => Read.val_main_v0 (F := Ideal) x W (h.lift (ix1 b) k)) (Finset.univ : Finset (Fin 128)) = _
  refine Finset.fold_congr fun k _ => ?_
  have e : h.lift (ix1 b) k = ix2 b k := funext fun a => Fin.ext (by
    match a with
    | ⟨0, _⟩ => simp [Shape.Reduces.lift_val, Shape.Reduces.liftVal]
    | ⟨1, _⟩ => simp [Shape.Reduces.lift_val, Shape.Reduces.liftVal])
  rw [e]
  exact ref_v0_at x W b k

/-- The softmax numerator at `(b, k)`. -/
theorem ref_v7_at (b : Fin 65536) (k : Fin 128) :
    Read.val_main_v7 (F := Ideal) x W (ix2 b k) = expo x W b k := by
  rw [Read.val_main_v7_apply, Read.val_main_v6_apply, Read.val_main_v5_apply, Read.val_main_v4_apply]
  have e : Read.idx_main_v4 (Read.idx_main_v5 (ix2 b k)) = ix1 b :=
    funext fun a => Fin.ext (by match a with | ⟨0, _⟩ => rfl)
  rw [e, ref_v3_at, ref_v0_at]
  simp only [Ideal.hostUnary_exp_def, Ideal.subf_def]
  rfl

/-- The softmax denominator at `b`. -/
theorem ref_v8_at (b : Fin 65536) :
    Read.val_main_v8 (F := Ideal) x W (ix1 b) = expSum x W b := by
  rw [Read.val_main_v8_apply, Read.val_main_cst_1_apply]
  simp only [Ideal.ofBits_def, Ideal.ofBits_zero_f32, zero_add]
  unfold expSum
  refine Finset.sum_congr rfl fun k _ => ?_
  have e : Read.idx_main_v8 (ix1 b) k = ix2 b k :=
    funext fun a => Fin.ext (by match a with | ⟨0, _⟩ => rfl | ⟨1, _⟩ => rfl)
  rw [e, ref_v7_at]

/-- The old bin's width at `(b, k)`. -/
theorem ref_v16_at (b : Fin 65536) (k : Fin 128) :
    Read.val_main_v16 (F := Ideal) oe (ix2 b k) = width oe k := by
  rw [Read.val_main_v16_apply, Read.val_main_v15_apply, Read.val_main_v14_apply, Read.val_main_v12_apply,
    Read.val_main_v13_apply]
  have e1 : Read.idx_main_v12 (Read.idx_main_v15 (Read.idx_main_v16 (ix2 b k)))
      = ix1 (⟨1 + k.val, by omega⟩ : Fin 129) :=
    funext fun a => Fin.ext (by match a with | ⟨0, _⟩ => rfl)
  have e2 : Read.idx_main_v13 (Read.idx_main_v15 (Read.idx_main_v16 (ix2 b k)))
      = ix1 (⟨k.val, by omega⟩ : Fin 129) :=
    funext fun a => Fin.ext (by match a with | ⟨0, _⟩ => rfl)
  rw [e1, e2]
  simp only [Ideal.subf_def]
  rfl

/-- The overlap at `(k, n)`. -/
theorem ref_v34_at (k : Fin 128) (n : Fin 64) :
    Read.val_main_v34 (F := Ideal) oe ne (ix2 k n) = overlap oe ne n k := by
  rw [Read.val_main_v34_apply, Read.val_main_v33_apply, Read.val_main_call0_v1_apply, Read.val_main_call0_v0_apply,
    Read.val_main_cst_2_apply, Read.val_main_v32_apply, Read.val_main_v31_apply, Read.val_main_v29_apply,
    Read.val_main_v26_apply, Read.val_main_v25_apply, Read.val_main_v30_apply, Read.val_main_v28_apply,
    Read.val_main_v27_apply, Read.val_main_v24_apply, Read.val_main_v22_apply, Read.val_main_v19_apply,
    Read.val_main_v18_apply, Read.val_main_v23_apply, Read.val_main_v21_apply, Read.val_main_v20_apply]
  have e1 : Read.idx_main_v25 (Read.idx_main_v26 (Read.idx_main_v29 (Read.idx_main_v34 (ix2 k n))))
      = ix1 (⟨1 + k.val, by omega⟩ : Fin 129) :=
    funext fun a => Fin.ext (by match a with | ⟨0, _⟩ => rfl)
  have e2 : Read.idx_main_v27 (Read.idx_main_v28 (Read.idx_main_v30 (Read.idx_main_v34 (ix2 k n))))
      = ix1 (⟨1 + n.val, by omega⟩ : Fin 65) :=
    funext fun a => Fin.ext (by match a with | ⟨0, _⟩ => rfl)
  have e3 : Read.idx_main_v18 (Read.idx_main_v19 (Read.idx_main_v22 (Read.idx_main_v34 (ix2 k n))))
      = ix1 (⟨k.val, by omega⟩ : Fin 129) :=
    funext fun a => Fin.ext (by match a with | ⟨0, _⟩ => rfl)
  have e4 : Read.idx_main_v20 (Read.idx_main_v21 (Read.idx_main_v23 (Read.idx_main_v34 (ix2 k n))))
      = ix1 (⟨n.val, by omega⟩ : Fin 65) :=
    funext fun a => Fin.ext (by match a with | ⟨0, _⟩ => rfl)
  rw [e1, e2, e3, e4]
  simp only [Ideal.ofBits_def, Ideal.ofBits_zero_f32, Ideal.subf_def, Ideal.maximumf_def, Ideal.minimumf_def]
  rfl

end Stages

theorem ref_value (x : SX.Idx → EReal) (W : SW.Idx → EReal) (oe : SOE.Idx → EReal) (ne : SNE.Idx → EReal) :
    Cert.ReferenceIdeal.Read.val_main_v38 (F := Ideal) x W oe ne = refArr x W oe ne := by
  funext i
  obtain ⟨b, n, rfl⟩ : ∃ (b : Fin 65536) (n : Fin 64), i = ix2 b n := ⟨i 0, i 1, eq_ix2 i⟩
  rw [Read.val_main_v38_apply, Read.val_main_v37_apply, Read.val_main_v36_apply, Read.val_main_cst_3_apply,
    Read.val_main_v35_apply]
  have hsum : ∀ k : Fin 128,
      Read.val_main_v17 (F := Ideal) x W oe (Read.lidx_main_v35 (ix2 b n) k)
          * Read.val_main_v34 (F := Ideal) oe ne (Read.ridx_main_v35 (ix2 b n) k)
        = Ideal.div (Ideal.div (expo x W b k) (expSum x W b)) (width oe k) * overlap oe ne n k := by
    intro k
    have e1 : Read.lidx_main_v35 (ix2 b n) k = ix2 b k :=
      funext fun a => Fin.ext (by match a with | ⟨0, _⟩ => rfl | ⟨1, _⟩ => rfl)
    have e2 : Read.ridx_main_v35 (ix2 b n) k = ix2 k n :=
      funext fun a => Fin.ext (by match a with | ⟨0, _⟩ => rfl | ⟨1, _⟩ => rfl)
    have e3 : Read.idx_main_v9 (Read.idx_main_v10 (ix2 b k)) = ix1 b :=
      funext fun a => Fin.ext (by match a with | ⟨0, _⟩ => rfl)
    rw [e1, e2, ref_v34_at, Read.val_main_v17_apply, Read.val_main_v11_apply, Read.val_main_v10_apply,
      Read.val_main_v9_apply, e3, ref_v7_at, ref_v8_at, ref_v16_at]
    simp only [Ideal.hostDivf_def]
  rw [Finset.sum_congr rfl fun k _ => hsum k]
  simp only [Ideal.hostUnary_log_def, Ideal.addf_def, Ideal.ofBits_def]
  rfl

end Cert.Rebin

end
-- ==== Proof.Algebra.lean ====
/-
  The two arrangements agree on admissible arrays.

  On admissible arrays every quantity in sight is a real number: a logit is a finite sum of products of reals, the
  row's maximum is the largest of 128 reals, each softmax numerator is the exponential of a real and so a positive
  real, their sum is a positive real, an overlap is a real, and a width is a nonzero real. Division by a nonzero real
  is multiplication by its reciprocal, so both arrangements are the logarithm of (a real number plus `tiny`), and the
  two real numbers agree:
      `(∑ k, e k · (c k · (1 / w k))) · (1 / S) = ∑ k, e k · (1 / S) · (1 / w k) · c k`.
-/
import proofs.«147845_g67611375173676_cont_9to1c4b_817_2_alg».proof.Proof.Spec
import Mathlib.Data.EReal.Basic
import Mathlib.Data.EReal.Operations
import Mathlib.Data.EReal.Inv

noncomputable section

open scoped BigOperators

namespace Cert.Rebin

open Idealize.ShloMosaic Idealize.ShloMosaic.ValueIdx

section Generic

variable {ι : Type*}

/-- Reading a real number as an extended real commutes with `max` and `min`. -/
theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

/-- A finite sum of real numbers read as extended reals is the real sum read as an extended real. -/
theorem sum_coe (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The fold of `max` from `-∞` over a nonempty finite family of real numbers is a real number. -/
theorem fold_max_coe (s : Finset ι) (f : ι → ℝ) :
    s.Nonempty → ∃ r : ℝ, s.fold max (⊥ : EReal) (fun k => (f k : EReal)) = (r : EReal) := by
  classical
  induction s using Finset.induction_on with
  | empty => intro hs; exact absurd hs Finset.not_nonempty_empty
  | insert a s ha ih =>
    intro _
    rw [Finset.fold_insert ha]
    rcases s.eq_empty_or_nonempty with rfl | hne
    · exact ⟨f a, by rw [Finset.fold_empty, max_bot_right]⟩
    · obtain ⟨r, hr⟩ := ih hne
      exact ⟨max (f a) r, by rw [hr, coe_max']⟩

/-- The two arrangements over real data: positive numerators `e`, overlaps `c`, nonzero widths `w`. -/
theorem core [Fintype ι] [Nonempty ι] (e c w : ι → ℝ) (he : ∀ k, 0 < e k) (hw : ∀ k, w k ≠ 0) (t : EReal) :
    Ideal.log (Ideal.div (∑ k, (e k : EReal) * Ideal.div (c k : EReal) (w k : EReal)) (∑ k, (e k : EReal)) + t) =
      Ideal.log ((∑ k, Ideal.div (Ideal.div (e k : EReal) (∑ k, (e k : EReal))) (w k : EReal) * (c k : EReal)) + t) := by
  have hS : (∑ k, (e k : EReal)) = ((∑ k, e k : ℝ) : EReal) := sum_coe _ _
  have hSpos : 0 < ∑ k, e k := Finset.sum_pos (fun k _ => he k) Finset.univ_nonempty
  have hSne : (∑ k, e k) ≠ 0 := hSpos.ne'
  rw [hS]
  have h1 : ∀ k, (e k : EReal) * Ideal.div (c k : EReal) (w k : EReal) = ((e k * (c k * (1 / w k)) : ℝ) : EReal) := by
    intro k
    rw [Ideal.div_coe (hw k), ← EReal.coe_mul, ← EReal.coe_mul]
  have h2 : ∀ k, Ideal.div (Ideal.div (e k : EReal) ((∑ k, e k : ℝ) : EReal)) (w k : EReal) * (c k : EReal) =
      ((e k * (1 / ∑ k, e k) * (1 / w k) * c k : ℝ) : EReal) := by
    intro k
    rw [Ideal.div_coe hSne, ← EReal.coe_mul, Ideal.div_coe (hw k), ← EReal.coe_mul, ← EReal.coe_mul]
  simp only [h1, h2]
  rw [sum_coe, sum_coe, Ideal.div_coe hSne, ← EReal.coe_mul]
  congr 3
  rw [Finset.sum_mul]
  refine Finset.sum_congr rfl fun k _ => ?_
  ring

end Generic

variable {x : SX.Idx → EReal} {W : SW.Idx → EReal} {oe : SOE.Idx → EReal} {ne : SNE.Idx → EReal}

theorem kernelOut_eq_refOut (h : Admissible x W oe ne) (b : Fin 65536) (n : Fin 64) :
    kernelOut x W oe ne b n = refOut x W oe ne b n := by
  obtain ⟨hx, hW, hoe, hne, hwid⟩ := h
  choose xr hxr using hx
  choose Wr hWr using hW
  choose oer hoer using hoe
  choose ner hner using hne
  -- each logit is a real number
  have hl : ∀ k, logit x W b k = ((∑ d : Fin 128, xr (ix2 b d) * Wr (ix2 d k) : ℝ) : EReal) := by
    intro k
    unfold logit
    simp only [hxr, hWr, ← EReal.coe_mul]
    exact sum_coe _ _
  -- so is the row's maximum
  obtain ⟨m, hm⟩ : ∃ m : ℝ, rowMax x W b = (m : EReal) := by
    unfold rowMax
    simp only [hl]
    exact fold_max_coe _ _ Finset.univ_nonempty
  -- each numerator is a positive real
  obtain ⟨e, he, hepos⟩ : ∃ e : Fin 128 → ℝ, (∀ k, expo x W b k = (e k : EReal)) ∧ ∀ k, 0 < e k := by
    refine ⟨fun k => Real.exp ((∑ d : Fin 128, xr (ix2 b d) * Wr (ix2 d k)) - m), fun k => ?_, fun k => Real.exp_pos _⟩
    unfold expo
    rw [hl, hm, ← EReal.coe_sub, Ideal.exp_coe]
  -- each overlap is a real
  obtain ⟨c, hc⟩ : ∃ c : Fin 128 → ℝ, ∀ k, overlap oe ne n k = (c k : EReal) := by
    refine ⟨fun k => max 0 (min (oer (ix1 (⟨1 + k.val, by omega⟩ : Fin 129))) (ner (ix1 (⟨1 + n.val, by omega⟩ : Fin 65))) -
      max (oer (ix1 (⟨k.val, by omega⟩ : Fin 129))) (ner (ix1 (⟨n.val, by omega⟩ : Fin 65)))), fun k => ?_⟩
    unfold overlap hi lo nhi nlo
    rw [hoer, hoer, hner, hner, ← coe_min', ← coe_max', ← EReal.coe_sub, ← EReal.coe_zero, ← coe_max']
  -- each width is a nonzero real
  obtain ⟨w, hw, hwne⟩ : ∃ w : Fin 128 → ℝ, (∀ k, width oe k = (w k : EReal)) ∧ ∀ k, w k ≠ 0 := by
    refine ⟨fun k => oer (ix1 (⟨1 + k.val, by omega⟩ : Fin 129)) - oer (ix1 (⟨k.val, by omega⟩ : Fin 129)),
      fun k => ?_, fun k => ?_⟩
    · unfold width hi lo
      rw [hoer, hoer, ← EReal.coe_sub]
    · have := hwid k
      unfold hi lo at this
      rw [hoer, hoer] at this
      exact sub_ne_zero.mpr fun hh => this (by rw [hh])
  unfold kernelOut refOut expSum
  simp only [he, hc, hw]
  exact core e c w hepos hwne tiny

theorem kernelArr_eq_refArr (h : Admissible x W oe ne) : kernelArr x W oe ne = refArr x W oe ne :=
  funext fun _ => kernelOut_eq_refOut h _ _

end Cert.Rebin

end
-- ==== Proof.KernelOps.lean ====
/-
  The kernel body's non-pointwise operations read at an index: a column `[a] → [a,1]` and its broadcast along the rows,
  a row's maximum and sum over its 128 lanes, and the two matrix products as sums over the contracted lane.
-/
import proofs.«147845_g67611375173676_cont_9to1c4b_817_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Rebin.Kernel

open Cert.KernelIdeal Cert.KernelIdeal.Gen Cert.KernelIdeal.Facts₀ Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential and the logarithm of a vector, and a scalar constant, read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem scalar_ofBits (b : BitVec 32) : (Scalar.ofBits .f32 b : Ideal .f32) = Ideal.ofBits .f32 b := rfl

/-- The pattern of `-∞` is the bottom of the extended reals. -/
theorem ofBits_neg_inf : Ideal.ofBits .f32 0xFF800000#32 = ⊥ := by simp [Ideal.ofBits, Ideal.ieee]

/-- A row's maximum over its 128 lanes: the fold of `max` from `-∞`. -/
theorem rowMax_apply (v : FVec Ideal S1024x128 .f32) (p : Fin 1024) :
    multiReduction .maximumf [1] S1024 v 0xFF800000#32 Facts₀.reduces_S1024x128_S1024 (.inl rfl) rfl (ix1 p)
      = (Finset.univ : Finset (Fin 128)).fold max ⊥ (fun k => v (ix2 p k)) := by
  refine (Ideal.multiReduction_maximumf_single v 0xFF800000#32 Facts₀.reduces_S1024x128_S1024 (.inl rfl) rfl (ix1 p)).trans ?_
  show (Finset.univ : Finset (Fin 128)).fold max (Ideal.ofBits .f32 0xFF800000#32) _ = _
  rw [ofBits_neg_inf]
  have e : (v ∘ (Facts₀.reduces_S1024x128_S1024).lift (ix1 p) : Fin 128 → EReal) = fun k => v (ix2 p k) :=
    funext fun k => congrArg v (funext fun a => Fin.ext (by
      match a with
      | ⟨0, _⟩ => rfl
      | ⟨1, _⟩ => rfl))
  exact congrArg (fun f : Fin 128 → EReal => (Finset.univ : Finset (Fin 128)).fold max ⊥ f) e

/-- A row's sum over its 128 lanes. -/
theorem rowSum_apply (v : FVec Ideal S1024x128 .f32) (p : Fin 1024) :
    multiReduction .add [1] S1024 v 0x00000000#32 Facts₀.reduces_S1024x128_S1024 (.inl rfl) rfl (ix1 p)
      = ∑ k : Fin 128, v (ix2 p k) := by
  refine (Ideal.multiReduction_add_single v 0x00000000#32 Facts₀.reduces_S1024x128_S1024 (.inl rfl) rfl (ix1 p)).trans ?_
  show ∑ k : Fin 128, _ = _
  refine Finset.sum_congr rfl fun k _ => congrArg v (funext fun a => Fin.ext ?_)
  match a with
  | ⟨0, _⟩ => rfl
  | ⟨1, _⟩ => rfl

/-! ## The logits' product: `[1024,128] × [128,128]`, contracting the left operand's lanes with the right operand's rows -/

theorem lhs_logit_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_logit_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_logit_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_logit_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product into a zero accumulator, at `(p, k)`: the sum over the lane `d` of `l (p, d) · r (d, k)`. -/
theorem logitMatmul_apply (l : FVec Ideal S1024x128 .f32) (r : FVec Ideal S128x128 .f32) (p : Fin 1024) (k : Fin 128) :
    matmul dot_S1024x128_S128x128_S1024x128_1_0_0_1_n_n none l r (constant S1024x128 .f32 0x00000000#32) (ix2 p k)
      = ∑ d : Fin 128, l (ix2 p d) * r (ix2 d k) := by
  refine (Ideal.matmul_constant_zero_apply dot_S1024x128_S128x128_S1024x128_1_0_0_1_n_n none l r (ix2 p k)).trans ?_
  rw [← Equiv.sum_comp (contrEquiv1 dot_S1024x128_S128x128_S1024x128_1_0_0_1_n_n 128 rfl rfl).symm]
  refine Finset.sum_congr rfl fun d _ => ?_
  have hd := contrEquiv1_symm_val dot_S1024x128_S128x128_S1024x128_1_0_0_1_n_n 128 rfl rfl d
  have el : dot_S1024x128_S128x128_S1024x128_1_0_0_1_n_n.lhsIdx (ix2 p k) ((contrEquiv1 dot_S1024x128_S128x128_S1024x128_1_0_0_1_n_n 128 rfl rfl).symm d) = ix2 p d := funext fun a => Fin.ext (by
    match a with
    | ⟨0, _⟩ => exact lhs_logit_0 _ _
    | ⟨1, _⟩ => exact (lhs_logit_1 _ _).trans hd)
  have er : dot_S1024x128_S128x128_S1024x128_1_0_0_1_n_n.rhsIdx (ix2 p k) ((contrEquiv1 dot_S1024x128_S128x128_S1024x128_1_0_0_1_n_n 128 rfl rfl).symm d) = ix2 d k := funext fun a => Fin.ext (by
    match a with
    | ⟨0, _⟩ => exact (rhs_logit_0 _ _).trans hd
    | ⟨1, _⟩ => exact rhs_logit_1 _ _)
  rw [el, er]

/-! ## The rebinning product: `[1024,128] × [64,128]`, contracting both operands' lanes -/

theorem lhs_rebin_0 (i : S1024x64.Idx) (q : dot_S1024x128_S64x128_S1024x64_1_1_0_0_n_n.contr.Idx) :
    (dot_S1024x128_S64x128_S1024x64_1_1_0_0_n_n.lhsIdx i q 0).val = (i 0).val := by
  unfold DotDims.lhsIdx
  rw [dif_neg (show ¬(0 : Fin S1024x128.rank) ∈ dot_S1024x128_S64x128_S1024x64_1_1_0_0_n_n.lhsBatch by decide), dif_pos (show (0 : Fin S1024x128.rank) ∈ dot_S1024x128_S64x128_S1024x64_1_1_0_0_n_n.lhsNonContracting by decide)]
  rfl
theorem lhs_rebin_1 (i : S1024x64.Idx) (q : dot_S1024x128_S64x128_S1024x64_1_1_0_0_n_n.contr.Idx) :
    (dot_S1024x128_S64x128_S1024x64_1_1_0_0_n_n.lhsIdx i q 1).val = (q ⟨0, by decide⟩).val :=
  dot_S1024x128_S64x128_S1024x64_1_1_0_0_n_n.lhsIdx_val_of_single rfl i q
theorem rhs_rebin_0 (i : S1024x64.Idx) (q : dot_S1024x128_S64x128_S1024x64_1_1_0_0_n_n.contr.Idx) :
    (dot_S1024x128_S64x128_S1024x64_1_1_0_0_n_n.rhsIdx i q 0).val = (i 1).val := by
  unfold DotDims.rhsIdx
  rw [dif_neg (show ¬(0 : Fin S64x128.rank) ∈ dot_S1024x128_S64x128_S1024x64_1_1_0_0_n_n.rhsBatch by decide), dif_pos (show (0 : Fin S64x128.rank) ∈ dot_S1024x128_S64x128_S1024x64_1_1_0_0_n_n.rhsNonContracting by decide)]
  rfl
theorem rhs_rebin_1 (i : S1024x64.Idx) (q : dot_S1024x128_S64x128_S1024x64_1_1_0_0_n_n.contr.Idx) :
    (dot_S1024x128_S64x128_S1024x64_1_1_0_0_n_n.rhsIdx i q 1).val = (q ⟨0, by decide⟩).val :=
  dot_S1024x128_S64x128_S1024x64_1_1_0_0_n_n.rhsIdx_val_of_single rfl i q

/-- The product into a zero accumulator, at `(p, n)`: the sum over the lane `k` of `l (p, k) · r (n, k)`. -/
theorem rebinMatmul_apply (l : FVec Ideal S1024x128 .f32) (r : FVec Ideal S64x128 .f32) (p : Fin 1024) (n : Fin 64) :
    matmul dot_S1024x128_S64x128_S1024x64_1_1_0_0_n_n none l r (constant S1024x64 .f32 0x00000000#32) (ix2 p n)
      = ∑ k : Fin 128, l (ix2 p k) * r (ix2 n k) := by
  refine (Ideal.matmul_constant_zero_apply dot_S1024x128_S64x128_S1024x64_1_1_0_0_n_n none l r (ix2 p n)).trans ?_
  rw [← Equiv.sum_comp (contrEquiv1 dot_S1024x128_S64x128_S1024x64_1_1_0_0_n_n 128 rfl rfl).symm]
  refine Finset.sum_congr rfl fun k _ => ?_
  have hk := contrEquiv1_symm_val dot_S1024x128_S64x128_S1024x64_1_1_0_0_n_n 128 rfl rfl k
  have el : dot_S1024x128_S64x128_S1024x64_1_1_0_0_n_n.lhsIdx (ix2 p n) ((contrEquiv1 dot_S1024x128_S64x128_S1024x64_1_1_0_0_n_n 128 rfl rfl).symm k) = ix2 p k := funext fun a => Fin.ext (by
    match a with
    | ⟨0, _⟩ => exact lhs_rebin_0 _ _
    | ⟨1, _⟩ => exact (lhs_rebin_1 _ _).trans hk)
  have er : dot_S1024x128_S64x128_S1024x64_1_1_0_0_n_n.rhsIdx (ix2 p n) ((contrEquiv1 dot_S1024x128_S64x128_S1024x64_1_1_0_0_n_n 128 rfl rfl).symm k) = ix2 n k := funext fun a => Fin.ext (by
    match a with
    | ⟨0, _⟩ => exact rhs_rebin_0 _ _
    | ⟨1, _⟩ => exact (rhs_rebin_1 _ _).trans hk)
  rw [el, er]

end Cert.Rebin.Kernel

end
-- ==== Proof.KernelPayload.lean ====
/-
  The kernel body's one stored value, read at row `p` and new bin `n` of the block: when the loaded blocks hold, at the
  indices the body reads, row `b` of `x`, the matrix `W`, and the old and new bins' edges, it is `kernelOut b n`.
  The body is cut into its stages — the logits, their exponentials shifted by the row maximum, the adaptor matrix
  `overlap / width` — and each stage is read at an index.
-/
import proofs.«147845_g67611375173676_cont_9to1c4b_817_2_alg».proof.Proof.KernelOps
import proofs.«147845_g67611375173676_cont_9to1c4b_817_2_alg».proof.Proof.Spec

noncomputable section

open scoped BigOperators

namespace Cert.Rebin.Kernel

open Cert.KernelIdeal Cert.KernelIdeal.Gen Cert.KernelIdeal.Facts₀ Idealize.ShloMosaic Idealize.ShloMosaic.ValueIdx Cert.Rebin

/-! ## The stages -/

/-- Each row's maximum and each row's sum over the 128 lanes. -/
def rowMaxOf (L : FVec Ideal S1024x128 .f32) : FVec Ideal S1024 .f32 :=
  multiReduction .maximumf [1] S1024 L 0xFF800000#32 Facts₀.reduces_S1024x128_S1024 (.inl rfl) rfl
def rowSumOf (E : FVec Ideal S1024x128 .f32) : FVec Ideal S1024 .f32 :=
  multiReduction .add [1] S1024 E 0x00000000#32 Facts₀.reduces_S1024x128_S1024 (.inl rfl) rfl

theorem rowMaxOf_apply (L : FVec Ideal S1024x128 .f32) (p : Fin 1024) :
    rowMaxOf L (ix1 p) = (Finset.univ : Finset (Fin 128)).fold max ⊥ (fun k => L (ix2 p k)) := rowMax_apply L p
theorem rowSumOf_apply (E : FVec Ideal S1024x128 .f32) (p : Fin 1024) :
    rowSumOf E (ix1 p) = ∑ k : Fin 128, E (ix2 p k) := rowSum_apply E p

/-- The block's logits `x · W`. -/
def logitsOf (v18 : FVec Ideal S1024x128 .f32) (v19 : FVec Ideal S128x128 .f32) : FVec Ideal S1024x128 .f32 :=
  matmul dot_S1024x128_S128x128_S1024x128_1_0_0_1_n_n none v18 v19 (constant S1024x128 .f32 0x00000000#32)

/-- The exponentials of the logits less their row's maximum. -/
def expsOf (v18 : FVec Ideal S1024x128 .f32) (v19 : FVec Ideal S128x128 .f32) : FVec Ideal S1024x128 .f32 :=
  exp (subf (logitsOf v18 v19)
    (broadcastTo S1024x128 (shapeCast S1024x1 (rowMaxOf (logitsOf v18 v19)) Facts₀.shapeCasts_S1024_S1024x1) Facts₀.broadcasts_S1024x1_S1024x128))

/-- The adaptor matrix: the overlap of new bin `n` with old bin `k`, over old bin `k`'s width. -/
def adaptorOf (v0 v2 : FVec Ideal S1x128 .f32) (v4 v6 : FVec Ideal S64x128 .f32) : FVec Ideal S64x128 .f32 :=
  divf
    (maximumf (broadcast S64x128 (Scalar.ofBits .f32 0x00000000#32 : Ideal .f32))
      (subf
        (minimumf (broadcastTo S64x128 (shapeCast S1x128 v2 Facts₀.shapeCasts_S1x128_S1x128) Facts₀.broadcasts_S1x128_S64x128)
          (shapeCast S64x128 v6 Facts₀.shapeCasts_S64x128_S64x128))
        (maximumf (broadcastTo S64x128 (shapeCast S1x128 v0 Facts₀.shapeCasts_S1x128_S1x128) Facts₀.broadcasts_S1x128_S64x128)
          (shapeCast S64x128 v4 Facts₀.shapeCasts_S64x128_S64x128))))
    (broadcastTo S64x128 (subf (shapeCast S1x128 v2 Facts₀.shapeCasts_S1x128_S1x128) (shapeCast S1x128 v0 Facts₀.shapeCasts_S1x128_S1x128))
      Facts₀.broadcasts_S1x128_S64x128)

/-- The body's stored value is the composition of the stages. -/
theorem payload_eq (v0 v2 : FVec Ideal S1x128 .f32) (v4 v6 : FVec Ideal S64x128 .f32) (v18 : FVec Ideal S1024x128 .f32)
    (v19 : FVec Ideal S128x128 .f32) :
    k0_pay1 (F := Ideal) v0 v2 v4 v6 v18 v19
      = log (addf
          (divf (matmul dot_S1024x128_S64x128_S1024x64_1_1_0_0_n_n none (expsOf v18 v19) (adaptorOf v0 v2 v4 v6) (constant S1024x64 .f32 0x00000000#32))
            (broadcastTo S1024x64 (shapeCast S1024x1 (rowSumOf (expsOf v18 v19)) Facts₀.shapeCasts_S1024_S1024x1) Facts₀.broadcasts_S1024x1_S1024x64))
          (broadcast S1024x64 (Scalar.ofBits .f32 0x00800000#32 : Ideal .f32))) := rfl

/-! ## The stages at an index -/

theorem logitsOf_apply (v18 : FVec Ideal S1024x128 .f32) (v19 : FVec Ideal S128x128 .f32) (p : Fin 1024) (k : Fin 128) :
    logitsOf v18 v19 (ix2 p k) = ∑ d : Fin 128, v18 (ix2 p d) * v19 (ix2 d k) := logitMatmul_apply v18 v19 p k

theorem expsOf_apply (v18 : FVec Ideal S1024x128 .f32) (v19 : FVec Ideal S128x128 .f32) (p : Fin 1024) (k : Fin 128) :
    expsOf v18 v19 (ix2 p k)
      = Ideal.exp ((∑ d : Fin 128, v18 (ix2 p d) * v19 (ix2 d k))
          - (Finset.univ : Finset (Fin 128)).fold max ⊥ (fun k' => ∑ d : Fin 128, v18 (ix2 p d) * v19 (ix2 d k'))) := by
  unfold expsOf
  simp only [exp_apply, subf_apply, broadcastTo_a1_ab_apply, shapeCast_a_a1_apply, rowMaxOf_apply, logitsOf_apply]

theorem adaptorOf_apply (v0 v2 : FVec Ideal S1x128 .f32) (v4 v6 : FVec Ideal S64x128 .f32) (n : Fin 64) (k : Fin 128) :
    adaptorOf v0 v2 v4 v6 (ix2 n k)
      = Ideal.div (max 0 (min (v2 (ix2 (0 : Fin 1) k)) (v6 (ix2 n k)) - max (v0 (ix2 (0 : Fin 1) k)) (v4 (ix2 n k))))
          (v2 (ix2 (0 : Fin 1) k) - v0 (ix2 (0 : Fin 1) k)) := by
  unfold adaptorOf
  simp only [shapeCast_self, divf_apply, maximumf_apply, minimumf_apply, subf_apply, broadcast_apply, broadcastTo_1b_ab_apply,
    scalar_ofBits, Ideal.ofBits_zero_f32]

/-! ## The stored value at an index -/

theorem payload_apply (v0 v2 : FVec Ideal S1x128 .f32) (v4 v6 : FVec Ideal S64x128 .f32) (v18 : FVec Ideal S1024x128 .f32)
    (v19 : FVec Ideal S128x128 .f32)
    (x : SX.Idx → EReal) (W : SW.Idx → EReal) (oe : SOE.Idx → EReal) (ne : SNE.Idx → EReal)
    (b : Fin 65536) (p : Fin 1024) (n : Fin 64)
    (h18 : ∀ d : Fin 128, v18 (ix2 p d) = x (ix2 b d))
    (h19 : ∀ d k : Fin 128, v19 (ix2 d k) = W (ix2 d k))
    (h0 : ∀ k : Fin 128, v0 (ix2 (0 : Fin 1) k) = lo oe k)
    (h2 : ∀ k : Fin 128, v2 (ix2 (0 : Fin 1) k) = hi oe k)
    (h4 : ∀ (n : Fin 64) (k : Fin 128), v4 (ix2 n k) = nlo ne n)
    (h6 : ∀ (n : Fin 64) (k : Fin 128), v6 (ix2 n k) = nhi ne n) :
    (k0_pay1 (F := Ideal) v0 v2 v4 v6 v18 v19) (ix2 p n) = kernelOut x W oe ne b n := by
  rw [payload_eq]
  simp only [log_apply, addf_apply, divf_apply, broadcast_apply, rebinMatmul_apply, broadcastTo_a1_ab_apply,
    shapeCast_a_a1_apply, rowSumOf_apply, expsOf_apply, adaptorOf_apply, scalar_ofBits, h18, h19, h0, h2, h4, h6]
  rfl

end Cert.Rebin.Kernel

end
-- ==== Proof.KernelValue.lean ====
/-
  The kernel's result array after the run is the kernel's arrangement `kernelArr` of the four argument arrays.

  Grid point `t` reads rows `1024 t … 1024 t + 1023` of `x` and, whole, `W` and the four edge arrays the host prepared
  (the old bins' left and right edges as one row of 128, the new bins' as 64 rows repeated along the lanes); what it
  writes back is rows `1024 t …` of `kernelArr`; the 64 points' row blocks cover the result.
-/
import proofs.«147845_g67611375173676_cont_9to1c4b_817_2_alg».proof.Proof.Gen.KernelIdeal.Value
import proofs.«147845_g67611375173676_cont_9to1c4b_817_2_alg».proof.Proof.Spec
import proofs.«147845_g67611375173676_cont_9to1c4b_817_2_alg».proof.Proof.KernelPayload
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.Rebin.Kernel

open Cert.KernelIdeal Cert.KernelIdeal.Gen Cert.KernelIdeal.Value Idealize.ShloMosaic.ValueIdx Cert.Rebin
open Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The four argument arrays as launched. -/
abbrev xArr (c : Dev nD) : SX.Idx → EReal := m ((c : Thread nD τ).loc main_arg0)
abbrev wArr (c : Dev nD) : SW.Idx → EReal := m ((c : Thread nD τ).loc main_arg1)
abbrev oeArr (c : Dev nD) : SOE.Idx → EReal := m ((c : Thread nD τ).loc main_arg2)
abbrev neArr (c : Dev nD) : SNE.Idx → EReal := m ((c : Thread nD τ).loc main_arg3)

/-! ## The arrays the host prepares before the region -/

theorem V_oldLo (c : Dev nD) : (V m c main_call0_v1 : S1x128.Idx → EReal)
    = shapeCast S1x128 (extractStridedSlice S128 ![0] (oeArr m c) Facts₀.slices_S129_S128_0) Facts₀.shapeCasts_S128_S1x128 := by
  dsimp only [V, hostOps0]; after_results; rfl

theorem V_oldHi (c : Dev nD) : (V m c main_call0_v3 : S1x128.Idx → EReal)
    = shapeCast S1x128 (extractStridedSlice S128 ![1] (oeArr m c) Facts₀.slices_S129_S128_1) Facts₀.shapeCasts_S128_S1x128 := by
  dsimp only [V, hostOps0]; after_results; rfl

theorem V_newLo (c : Dev nD) : (V m c main_call0_v6 : S64x128.Idx → EReal)
    = broadcastInDim S64x128 ![0, 1] Facts₀.bcast_S64x1_S64x128_0_1
        (shapeCast S64x1 (extractStridedSlice S64 ![0] (neArr m c) Facts₀.slices_S65_S64_0) Facts₀.shapeCasts_S64_S64x1) := by
  dsimp only [V, hostOps0]; after_results; rfl

theorem V_newHi (c : Dev nD) : (V m c main_call0_v9 : S64x128.Idx → EReal)
    = broadcastInDim S64x128 ![0, 1] Facts₀.bcast_S64x1_S64x128_0_1
        (shapeCast S64x1 (extractStridedSlice S64 ![1] (neArr m c) Facts₀.slices_S65_S64_1) Facts₀.shapeCasts_S64_S64x1) := by
  dsimp only [V, hostOps0]; after_results; rfl

/-- The row of left edges holds `old_edges[k]` at lane `k`. -/
theorem oldLo_apply (c : Dev nD) (k : Fin 128) :
    (V m c main_call0_v1 : S1x128.Idx → EReal) (ix2 (0 : Fin 1) k) = lo (oeArr m c) k := by
  rw [V_oldLo]
  refine (shapeCast_a_1a_apply _ _ (0 : Fin 1) k).trans ?_
  unfold lo
  refine extractStridedSlice_apply _ _ _ (ix1 k) (ix1 (⟨k.val, by omega⟩ : Fin 129)) fun a => ?_
  match a with
  | ⟨0, _⟩ => show k.val = 0 + k.val; omega

/-- The row of right edges holds `old_edges[k + 1]` at lane `k`. -/
theorem oldHi_apply (c : Dev nD) (k : Fin 128) :
    (V m c main_call0_v3 : S1x128.Idx → EReal) (ix2 (0 : Fin 1) k) = hi (oeArr m c) k := by
  rw [V_oldHi]
  refine (shapeCast_a_1a_apply _ _ (0 : Fin 1) k).trans ?_
  unfold hi
  refine extractStridedSlice_apply _ _ _ (ix1 k) (ix1 (⟨1 + k.val, by omega⟩ : Fin 129)) fun a => ?_
  match a with
  | ⟨0, _⟩ => show 1 + k.val = 1 + k.val; rfl

/-- A column `[64,1]` repeated along 128 lanes reads the column. -/
theorem bcastCol_apply (v : S64x1.Idx → EReal) (n : Fin 64) (k : Fin 128) :
    broadcastInDim S64x128 ![0, 1] Facts₀.bcast_S64x1_S64x128_0_1 v (ix2 n k) = v (ix2 n (0 : Fin 1)) := by
  refine broadcastInDim_apply _ _ v (ix2 n k) (ix2 n (0 : Fin 1)) fun a => ?_
  match a with
  | ⟨0, _⟩ => show n.val = if (64 : ℕ) = 1 then 0 else n.val; rw [if_neg (by decide)]
  | ⟨1, _⟩ => show (0 : ℕ) = if (1 : ℕ) = 1 then 0 else k.val; rw [if_pos rfl]

/-- The new bins' left edges: `new_edges[n]` at row `n`, every lane. -/
theorem newLo_apply (c : Dev nD) (n : Fin 64) (k : Fin 128) :
    (V m c main_call0_v6 : S64x128.Idx → EReal) (ix2 n k) = nlo (neArr m c) n := by
  rw [V_newLo]
  refine (bcastCol_apply _ n k).trans ?_
  refine (shapeCast_a_a1_apply _ _ n (0 : Fin 1)).trans ?_
  unfold nlo
  refine extractStridedSlice_apply _ _ _ (ix1 n) (ix1 (⟨n.val, by omega⟩ : Fin 65)) fun a => ?_
  match a with
  | ⟨0, _⟩ => show n.val = 0 + n.val; omega

/-- The new bins' right edges: `new_edges[n + 1]` at row `n`, every lane. -/
theorem newHi_apply (c : Dev nD) (n : Fin 64) (k : Fin 128) :
    (V m c main_call0_v9 : S64x128.Idx → EReal) (ix2 n k) = nhi (neArr m c) n := by
  rw [V_newHi]
  refine (bcastCol_apply _ n k).trans ?_
  refine (shapeCast_a_a1_apply _ _ n (0 : Fin 1)).trans ?_
  unfold nhi
  refine extractStridedSlice_apply _ _ _ (ix1 n) (ix1 (⟨1 + n.val, by omega⟩ : Fin 65)) fun a => ?_
  match a with
  | ⟨0, _⟩ => show 1 + n.val = 1 + n.val; rfl

/-! ## The windows' blocks -/

/-- The printed index maps, decided over the 64 grid points: `x` and the result move down one row block per point,
    every other window stays on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 64 := (show t.val < grid0.N from t.isLt).trans_eq N_0

/-- Point `t`'s block of `x` is rows `1024 t …` of `x`. -/
theorem xBlk_apply (c : Dev nD) (t : Fin cfg0.N) (p : Fin 1024) (d : Fin 128) (hb : t.val * 1024 + p.val < 65536) :
    (iblk m c 0 t : S1024x128.Idx → EReal) (ix2 p d) = xArr m c (ix2 (⟨t.val * 1024 + p.val, hb⟩ : Fin 65536) d) := by
  obtain ⟨e00, e01, -⟩ := idx_facts t
  unfold iblk
  rw [View.read_apply]
  show V m c main_arg0 _ = m (c.tc.loc main_arg0) _
  rw [V_main_arg0]
  congr 1
  funext ax
  apply Fin.ext
  match ax with
  | ⟨0, _⟩ => show win0_0.index t (0 : Fin 2) * 1024 + 1 * p.val = t.val * 1024 + p.val; rw [e00]; omega
  | ⟨1, _⟩ => show win0_0.index t (1 : Fin 2) * 128 + 1 * d.val = d.val; rw [e01]; omega

/-- Every point's block of `W` is `W`. -/
theorem wBlk_apply (c : Dev nD) (t : Fin cfg0.N) (i : Fin 128) (j : Fin 128) :
    (iblk m c 1 t : S128x128.Idx → EReal) (ix2 i j) = (V m c main_arg1 : S128x128.Idx → EReal) (ix2 i j) := by
  obtain ⟨-, -, e10, e11, e20, e21, e30, e31, e40, e41, e50, e51, -, -⟩ := idx_facts t
  unfold iblk
  rw [View.read_apply]
  show V m c main_arg1 _ = V m c main_arg1 _
  congr 1
  funext ax
  apply Fin.ext
  match ax with
  | ⟨0, _⟩ => show win0_1.index t (0 : Fin 2) * 128 + 1 * i.val = i.val; rw [e10]; omega
  | ⟨1, _⟩ => show win0_1.index t (1 : Fin 2) * 128 + 1 * j.val = j.val; rw [e11]; omega

/-- Every point's block of the left edges' row is the row. -/
theorem loBlk_apply (c : Dev nD) (t : Fin cfg0.N) (i : Fin 1) (j : Fin 128) :
    (iblk m c 2 t : S1x128.Idx → EReal) (ix2 i j) = (V m c main_call0_v1 : S1x128.Idx → EReal) (ix2 i j) := by
  obtain ⟨-, -, e10, e11, e20, e21, e30, e31, e40, e41, e50, e51, -, -⟩ := idx_facts t
  unfold iblk
  rw [View.read_apply]
  show V m c main_call0_v1 _ = V m c main_call0_v1 _
  congr 1
  funext ax
  apply Fin.ext
  match ax with
  | ⟨0, _⟩ => show win0_2.index t (0 : Fin 2) * 1 + 1 * i.val = i.val; rw [e20]; omega
  | ⟨1, _⟩ => show win0_2.index t (1 : Fin 2) * 128 + 1 * j.val = j.val; rw [e21]; omega

/-- Every point's block of the right edges' row is the row. -/
theorem hiBlk_apply (c : Dev nD) (t : Fin cfg0.N) (i : Fin 1) (j : Fin 128) :
    (iblk m c 3 t : S1x128.Idx → EReal) (ix2 i j) = (V m c main_call0_v3 : S1x128.Idx → EReal) (ix2 i j) := by
  obtain ⟨-, -, e10, e11, e20, e21, e30, e31, e40, e41, e50, e51, -, -⟩ := idx_facts t
  unfold iblk
  rw [View.read_apply]
  show V m c main_call0_v3 _ = V m c main_call0_v3 _
  congr 1
  funext ax
  apply Fin.ext
  match ax with
  | ⟨0, _⟩ => show win0_3.index t (0 : Fin 2) * 1 + 1 * i.val = i.val; rw [e30]; omega
  | ⟨1, _⟩ => show win0_3.index t (1 : Fin 2) * 128 + 1 * j.val = j.val; rw [e31]; omega

/-- Every point's block of the new bins' left edges is the whole array. -/
theorem nloBlk_apply (c : Dev nD) (t : Fin cfg0.N) (i : Fin 64) (j : Fin 128) :
    (iblk m c 4 t : S64x128.Idx → EReal) (ix2 i j) = (V m c main_call0_v6 : S64x128.Idx → EReal) (ix2 i j) := by
  obtain ⟨-, -, e10, e11, e20, e21, e30, e31, e40, e41, e50, e51, -, -⟩ := idx_facts t
  unfold iblk
  rw [View.read_apply]
  show V m c main_call0_v6 _ = V m c main_call0_v6 _
  congr 1
  funext ax
  apply Fin.ext
  match ax with
  | ⟨0, _⟩ => show win0_4.index t (0 : Fin 2) * 64 + 1 * i.val = i.val; rw [e40]; omega
  | ⟨1, _⟩ => show win0_4.index t (1 : Fin 2) * 128 + 1 * j.val = j.val; rw [e41]; omega

/-- Every point's block of the new bins' right edges is the whole array. -/
theorem nhiBlk_apply (c : Dev nD) (t : Fin cfg0.N) (i : Fin 64) (j : Fin 128) :
    (iblk m c 5 t : S64x128.Idx → EReal) (ix2 i j) = (V m c main_call0_v9 : S64x128.Idx → EReal) (ix2 i j) := by
  obtain ⟨-, -, e10, e11, e20, e21, e30, e31, e40, e41, e50, e51, -, -⟩ := idx_facts t
  unfold iblk
  rw [View.read_apply]
  show V m c main_call0_v9 _ = V m c main_call0_v9 _
  congr 1
  funext ax
  apply Fin.ext
  match ax with
  | ⟨0, _⟩ => show win0_5.index t (0 : Fin 2) * 64 + 1 * i.val = i.val; rw [e50]; omega
  | ⟨1, _⟩ => show win0_5.index t (1 : Fin 2) * 128 + 1 * j.val = j.val; rw [e51]; omega

/-! ## What a point writes back, and the result array -/

/-- The result as one function of the argument arrays. -/
abbrev result (c : Dev nD) : SOut.Idx → EReal := kernelArr (xArr m c) (wArr m c) (oeArr m c) (neArr m c)

/-- `kernelArr` at an index whose coordinates are `b` and `n`. -/
theorem kernelArr_apply (x : SX.Idx → EReal) (W : SW.Idx → EReal) (oe : SOE.Idx → EReal) (ne : SNE.Idx → EReal)
    (i : SOut.Idx) (b : Fin 65536) (n : Fin 64) (h0 : (i 0).val = b.val) (h1 : (i 1).val = n.val) :
    kernelArr x W oe ne i = kernelOut x W oe ne b n := by
  unfold kernelArr
  have eb : (⟨(i 0).val, (i 0).isLt⟩ : Fin 65536) = b := Fin.ext h0
  have en : (⟨(i 1).val, (i 1).isLt⟩ : Fin 64) = n := Fin.ext h1
  rw [eb, en]

/-- WHAT POINT `t` WRITES BACK is rows `1024 t …` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S1x128) hz, View.ld_unit_zero (S := S64x128) hz, View.ld_unit_zero (S := S1024x128) hz,
    View.ld_unit_zero (S := S128x128) hz]
  funext j
  obtain ⟨p, n, rfl⟩ : ∃ (p : Fin 1024) (n : Fin 64), j = ix2 p n := ⟨j 0, j 1, eq_ix2 j⟩
  have ht := t_lt t
  have hb : t.val * 1024 + p.val < 65536 := by have := p.isLt; omega
  obtain ⟨-, -, -, -, -, -, -, -, -, -, -, -, e60, e61⟩ := idx_facts t
  show (k0_pay1 (F := Ideal) (iblk m c 2 t) (iblk m c 3 t) (iblk m c 4 t) (iblk m c 5 t) (iblk m c 0 t) (iblk m c 1 t)) (ix2 p n)
    = result m c (((cfg0.win 6).blk t).view.emb (ix2 p n))
  have h18 : ∀ d : Fin 128, (iblk m c 0 t : S1024x128.Idx → EReal) (ix2 p d) = xArr m c (ix2 (⟨t.val * 1024 + p.val, hb⟩ : Fin 65536) d) :=
    fun d => xBlk_apply m c t p d hb
  have h19 : ∀ d k : Fin 128, (iblk m c 1 t : S128x128.Idx → EReal) (ix2 d k) = wArr m c (ix2 d k) :=
    fun d k => (wBlk_apply m c t d k).trans (congrFun (V_main_arg1 m c) (ix2 d k))
  have h0 : ∀ k : Fin 128, (iblk m c 2 t : S1x128.Idx → EReal) (ix2 (0 : Fin 1) k) = lo (oeArr m c) k :=
    fun k => (loBlk_apply m c t 0 k).trans (oldLo_apply m c k)
  have h2 : ∀ k : Fin 128, (iblk m c 3 t : S1x128.Idx → EReal) (ix2 (0 : Fin 1) k) = hi (oeArr m c) k :=
    fun k => (hiBlk_apply m c t 0 k).trans (oldHi_apply m c k)
  have h4 : ∀ (n : Fin 64) (k : Fin 128), (iblk m c 4 t : S64x128.Idx → EReal) (ix2 n k) = nlo (neArr m c) n :=
    fun n k => (nloBlk_apply m c t n k).trans (newLo_apply m c n k)
  have h6 : ∀ (n : Fin 64) (k : Fin 128), (iblk m c 5 t : S64x128.Idx → EReal) (ix2 n k) = nhi (neArr m c) n :=
    fun n k => (nhiBlk_apply m c t n k).trans (newHi_apply m c n k)
  refine (payload_apply (iblk m c 2 t) (iblk m c 3 t) (iblk m c 4 t) (iblk m c 5 t) (iblk m c 0 t) (iblk m c 1 t)
    (xArr m c) (wArr m c) (oeArr m c) (neArr m c) ⟨t.val * 1024 + p.val, hb⟩ p n h18 h19 h0 h2 h4 h6).trans ?_
  refine (kernelArr_apply (xArr m c) (wArr m c) (oeArr m c) (neArr m c) (((cfg0.win 6).blk t).view.emb (ix2 p n))
    ⟨t.val * 1024 + p.val, hb⟩ n ?_ ?_).symm
  · show win0_6.index t (0 : Fin 2) * 1024 + 1 * p.val = t.val * 1024 + p.val
    rw [e60]; omega
  · show win0_6.index t (1 : Fin 2) * 64 + 1 * n.val = n.val
    rw [e61]; omega

/-- An index of the result is in point `t`'s block iff each coordinate is in the block's range on its axis. -/
theorem mem_blk (t : Fin cfg0.N) (i : S65536x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v0).slice (win0_6.rect t)).set ↔ _
  rw [View.set_slice_whole, Rect.mem_set_unit]
  exact Iff.rfl

/-- Row `r` of the result is in the block of point `r / 1024`. -/
theorem cover (i : S65536x64.Idx) : ∃ t : Fin cfg0.N, (cfg0.win 6).flush t = true ∧ i ∈ ((cfg0.win 6).blk t).view.set := by
  have hi0 : (i 0).val < 65536 := (i 0).isLt
  have hi1 : (i 1).val < 64 := (i 1).isLt
  refine ⟨⟨(i 0).val / 1024, by rw [show cfg0.N = 64 from N_0]; omega⟩, flush0_6 _, ?_⟩
  rw [mem_blk]
  obtain ⟨-, -, -, -, -, -, -, -, -, -, -, -, e60, e61⟩ := idx_facts ⟨(i 0).val / 1024, by rw [show cfg0.N = 64 from N_0]; omega⟩
  intro a
  match a with
  | ⟨0, _⟩ =>
    show win0_6.index _ (0 : Fin 2) * 1024 ≤ (i 0).val ∧ (i 0).val < win0_6.index _ (0 : Fin 2) * 1024 + 1024
    rw [e60]
    show (i 0).val / 1024 * 1024 ≤ (i 0).val ∧ (i 0).val < (i 0).val / 1024 * 1024 + 1024
    omega
  | ⟨1, _⟩ =>
    show win0_6.index _ (1 : Fin 2) * 64 ≤ (i 1).val ∧ (i 1).val < win0_6.index _ (1 : Fin 2) * 64 + 64
    rw [e61]
    omega

/-- The result array after the run. -/
theorem final (c : Dev nD) : (dats m 0 c).arrAt 6 cfg0.N = result m c :=
  (dats m 0 c).arrAt_eq_of_cover 6 (result m c) (fun t _ => flushed_eq m c t) cover

/-- The run: the result array at `kernelArr` of the arguments, the arguments unchanged. -/
theorem run : θ_run (defs (F := Ideal)) (onTc (τ := τ) (main (F := Ideal))) ⟨m, fun _ => 0, ρ⟩ fun r => ∀ c : Dev nD,
      r.2.mem ((c : Thread nD τ).loc main_v0) = Cert.Rebin.kernelArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Rebin.Kernel

end
-- ==== Proof.lean ====
/-
  The kernel computes, row block by row block, log of the softmax of `x · W` rebinned from the old bin edges to the new ones;
  the reference computes the same from whole arrays. Both results are functions of the four argument arrays
  (Proof/Spec.lean): the kernel's `kernelArr` divides the rebinned exponentials by their row sum once, with each old bin's
  width folded into the overlap matrix, the reference's `refArr` divides each probability by its bin's width before the
  rebinning sum. Where every input is a real number and no old bin has length zero the two are equal term by term over the
  reals (Proof/Algebra.lean); the precondition says exactly that of the arrays (Proof/PreFacts.lean). A bin of length zero is
  excluded because there the reference's own quotient by the width is a division by zero.
-/
import proofs.«147845_g67611375173676_cont_9to1c4b_817_2_alg».proof.Defs
import proofs.«147845_g67611375173676_cont_9to1c4b_817_2_alg».proof.Proof.Gen.Kernel
import proofs.«147845_g67611375173676_cont_9to1c4b_817_2_alg».proof.Proof.Gen.Kernel.Skeleton
import proofs.«147845_g67611375173676_cont_9to1c4b_817_2_alg».proof.Proof.Gen.Kernel.Launch
import proofs.«147845_g67611375173676_cont_9to1c4b_817_2_alg».proof.Proof.Gen.Kernel.Points
import proofs.«147845_g67611375173676_cont_9to1c4b_817_2_alg».proof.Proof.Gen.Kernel.Frame
import proofs.«147845_g67611375173676_cont_9to1c4b_817_2_alg».proof.Proof.Gen.KernelIdeal
import proofs.«147845_g67611375173676_cont_9to1c4b_817_2_alg».proof.Proof.Gen.KernelIdeal.Skeleton
import proofs.«147845_g67611375173676_cont_9to1c4b_817_2_alg».proof.Proof.Gen.KernelIdeal.Launch
import proofs.«147845_g67611375173676_cont_9to1c4b_817_2_alg».proof.Proof.Gen.KernelIdeal.Points
import proofs.«147845_g67611375173676_cont_9to1c4b_817_2_alg».proof.Proof.Gen.KernelIdeal.Frame
import proofs.«147845_g67611375173676_cont_9to1c4b_817_2_alg».proof.Proof.Gen.ReferenceIdeal
import proofs.«147845_g67611375173676_cont_9to1c4b_817_2_alg».proof.Proof.Gen.Pre_finite_inputs
import proofs.«147845_g67611375173676_cont_9to1c4b_817_2_alg».proof.Proof.Gen.KernelIdeal.Value
import proofs.«147845_g67611375173676_cont_9to1c4b_817_2_alg».proof.Proof.Gen.ReferenceIdeal.Run
import proofs.«147845_g67611375173676_cont_9to1c4b_817_2_alg».proof.Proof.Gen.ReferenceIdeal.Read
import proofs.«147845_g67611375173676_cont_9to1c4b_817_2_alg».proof.Proof.Spec
import proofs.«147845_g67611375173676_cont_9to1c4b_817_2_alg».proof.Proof.PreFacts
import proofs.«147845_g67611375173676_cont_9to1c4b_817_2_alg».proof.Proof.RefValue
import proofs.«147845_g67611375173676_cont_9to1c4b_817_2_alg».proof.Proof.Algebra
import proofs.«147845_g67611375173676_cont_9to1c4b_817_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at one function of the arguments: the kernel's at `kernelArr`, the reference's at `refArr` of arrays that
    agree with the kernel's, and the two arrangements are equal on arrays the precondition admits. -/
theorem algebraic : Cert.algebraic_KernelIdeal_ReferenceIdeal := by
  intro m ρ m' ρ' hpre hagree
  refine ⟨fun c => Cert.Rebin.kernelArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Rebin.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.Rebin.ref_value, (hagree c).1, (hagree c).2.1, (hagree c).2.2.1, (hagree c).2.2.2]
  exact (Cert.Rebin.kernelArr_eq_refArr (Cert.Rebin.admissible_of_pre _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
